-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S5x1024 : Shape := ⟨2, ![5, 1024]⟩
abbrev S5 : Shape := ⟨1, ![5]⟩
abbrev S30x1024 : Shape := ⟨2, ![30, 1024]⟩
abbrev S30 : Shape := ⟨1, ![30]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S5x1024 : S_.BroadcastsInDim S5x1024 (![] : Fin 0 → Fin S5x1024.rank)
  reducesTo_S5x1024_S_d0_1 : S5x1024.ReducesTo [0, 1] S_
  bcast_S_S5 : S_.BroadcastsInDim S5 (![] : Fin 0 → Fin S5.rank)
  reducesTo_S5_S_d0 : S5.ReducesTo [0] S_
  bcast_S_S30x1024 : S_.BroadcastsInDim S30x1024 (![] : Fin 0 → Fin S30x1024.rank)
  reducesTo_S30x1024_S_d0_1 : S30x1024.ReducesTo [0, 1] S_
  bcast_S_S30 : S_.BroadcastsInDim S30 (![] : Fin 0 → Fin S30.rank)
  reducesTo_S30_S_d0 : S30.ReducesTo [0] S_

variable [Facts]

def fn_part1 {F : FTy → Type} [FloatOps F] (main_arg4 : FVec F S30 .f32) (main_v13 : IVec S_ 1) (main_v16 : IVec S30x1024 1) : IVec S_ 1 :=
  let main_c_5 : IVec S_ 1 := constantI S_ 1 1#1
  let main_v17 : IVec S_ 1 := (fun x v => Host.reduce IntOp.andi x v reducesTo_S30x1024_S_d0_1 h_S_) main_v16 main_c_5
  let main_v18 : IVec S_ 1 := andi main_v13 main_v17
  let main_v19 : FVec F S30 .f32 := Host.absf main_arg4
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  main_v23

def fn {F : FTy → Type} [FloatOps F] (main_arg0 : FVec F S32x2048x1024 .f32) (main_arg1 : FVec F S5x1024 .f32) (main_arg2 : FVec F S5 .f32) (main_arg3 : FVec F S30x1024 .f32) (main_arg4 : FVec F S30 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S5x1024 .f32 := Host.absf main_arg1
  let main_cst_0 : FVec F S_ .f32 := constant S_ .f32 0x7F800000#32
  let main_v5 : FVec F S5x1024 .f32 := broadcastInDim S5x1024 ![] bcast_S_S5x1024 main_cst_0
  let main_v6 : IVec S5x1024 1 := cmpf .olt main_v4 main_v5
  let main_c_1 : IVec S_ 1 := constantI S_ 1 1#1
  let main_v7 : IVec S_ 1 := (fun x v => Host.reduce IntOp.andi x v reducesTo_S5x1024_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S30x1024 .f32 := Host.absf main_arg3
  let main_cst_4 : FVec F S_ .f32 := constant S_ .f32 0x7F800000#32
  let main_v15 : FVec F S30x1024 .f32 := broadcastInDim S30x1024 ![] bcast_S_S30x1024 main_cst_4
  let main_v16 : IVec S30x1024 1 := cmpf .olt main_v14 main_v15
  fn_part1 (F := F) main_arg4 main_v13 main_v16
-- ==== Kernel.lean ====
abbrev S32x2048x1024 : Shape := ⟨3, ![32, 2048, 1024]⟩
abbrev S5x1024 : Shape := ⟨2, ![5, 1024]⟩
abbrev S5 : Shape := ⟨1, ![5]⟩
abbrev S30x1024 : Shape := ⟨2, ![30, 1024]⟩
abbrev S30 : Shape := ⟨1, ![30]⟩
abbrev S65536x1024 : Shape := ⟨2, ![65536, 1024]⟩
abbrev S1x5 : Shape := ⟨2, ![1, 5]⟩
abbrev S1x30 : Shape := ⟨2, ![1, 30]⟩
abbrev S65536x63 : Shape := ⟨2, ![65536, 63]⟩
abbrev S2048x1024 : Shape := ⟨2, ![2048, 1024]⟩
abbrev S2048x63 : Shape := ⟨2, ![2048, 63]⟩
abbrev S1024x5 : Shape := ⟨2, ![1024, 5]⟩
abbrev S2048x5 : Shape := ⟨2, ![2048, 5]⟩
abbrev S1024x30 : Shape := ⟨2, ![1024, 30]⟩
abbrev S2048x30 : Shape := ⟨2, ![2048, 30]⟩
abbrev S2048 : Shape := ⟨1, ![2048]⟩
abbrev S2048x1 : Shape := ⟨2, ![2048, 1]⟩
abbrev S32x2048x63 : Shape := ⟨3, ![32, 2048, 63]⟩

abbrev nBuf : Space → Nat
  | .hbm => 10
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S5x1024, .f32⟩
  | .hbm, ⟨2, _⟩ => ⟨S5, .f32⟩
  | .hbm, ⟨3, _⟩ => ⟨S30x1024, .f32⟩
  | .hbm, ⟨4, _⟩ => ⟨S30, .f32⟩
  | .hbm, ⟨5, _⟩ => ⟨S65536x1024, .f32⟩
  | .hbm, ⟨6, _⟩ => ⟨S1x5, .f32⟩
  | .hbm, ⟨7, _⟩ => ⟨S1x30, .f32⟩
  | .hbm, ⟨8, _⟩ => ⟨S65536x63, .f32⟩
  | .hbm, ⟨9, _⟩ => ⟨S32x2048x63, .f32⟩
  | .local _ .vmem, ⟨0, _⟩ => ⟨S2048x1024, .f32⟩
  | .local _ .vmem, ⟨1, _⟩ => ⟨S2048x1024, .f32⟩
  | .local _ .vmem, ⟨2, _⟩ => ⟨S5x1024, .f32⟩
  | .local _ .vmem, ⟨3, _⟩ => ⟨S1x5, .f32⟩
  | .local _ .vmem, ⟨4, _⟩ => ⟨S30x1024, .f32⟩
  | .local _ .vmem, ⟨5, _⟩ => ⟨S1x30, .f32⟩
  | .local _ .vmem, ⟨6, _⟩ => ⟨S2048x63, .f32⟩
  | .local _ .vmem, ⟨7, _⟩ => ⟨S2048x63, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x63 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x2048x1024_S65536x1024 : S32x2048x1024.ShapeCasts S65536x1024
  shapeCasts_S5_S1x5 : S5.ShapeCasts S1x5
  shapeCasts_S30_S1x30 : S30.ShapeCasts S1x30
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S5x1024_S5x1024_0_0 : ∀ a, (![0, 0] : Fin 2 → Nat) a + S5x1024.size a ≤ S5x1024.size a
  h_S5x1024 : 0 < S5x1024.numel
  transposes_S5x1024_p1_0_S1024x5 : S5x1024.Transposes [1, 0] S1024x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2048x5 : S1x5.Broadcasts S2048x5
  inb_S30x1024_S30x1024_0_0 : ∀ a, (![0, 0] : Fin 2 → Nat) a + S30x1024.size a ≤ S30x1024.size a
  h_S30x1024 : 0 < S30x1024.numel
  transposes_S30x1024_p1_0_S1024x30 : S30x1024.Transposes [1, 0] S1024x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S2048x30 : S1x30.Broadcasts S2048x30
  reduces_S2048x5_S2048 : S2048x5.Reduces [1] S2048
  shapeCasts_S2048_S2048x1 : S2048.ShapeCasts S2048x1
  broadcasts_S2048x1_S2048x5 : S2048x1.Broadcasts S2048x5
  reduces_S2048x30_S2048 : S2048x30.Reduces [1] S2048
  broadcasts_S2048x1_S2048x30 : S2048x1.Broadcasts S2048x30
  slices_S2048x5_o0_0_S2048x1 : S2048x5.Slices ![0, 0] S2048x1
  slices_S2048x5_o0_1_S2048x1 : S2048x5.Slices ![0, 1] S2048x1
  slices_S2048x5_o0_2_S2048x1 : S2048x5.Slices ![0, 2] S2048x1
  slices_S2048x5_o0_3_S2048x1 : S2048x5.Slices ![0, 3] S2048x1
  slices_S2048x5_o0_4_S2048x1 : S2048x5.Slices ![0, 4] S2048x1
  concatenates_S2048x1_S2048x1_S2048x1_S2048x30_S2048x30_S2048x63_d1 : Shape.Concatenates [S2048x1, S2048x1, S2048x1, S2048x30, S2048x30] S2048x63 1
  inb_S2048x63_S2048x63_0_0 : ∀ a, (![0, 0] : Fin 2 → Nat) a + S2048x63.size a ≤ S2048x63.size a
  h_S2048x63 : 0 < S2048x63.numel
  shapeCasts_S65536x63_S32x2048x63 : S65536x63.ShapeCasts S32x2048x63
  dot_S2048x1024_S1024x5_S2048x5_1_0_0_1_n_n_wf : DotDims.WF S2048x1024 S1024x5 S2048x5 [1] [0] [0] [1] [] []
  dot_S2048x1024_S1024x30_S2048x30_1_0_0_1_n_n_wf : DotDims.WF S2048x1024 S1024x30 S2048x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x1024.size a ≤ S5x1024.size a
  hwx0_1 : ∀ i : grid0.Coords, EltTy.bits .f32 = 32 ∨ (Rect.block (s := S5x1024) S5x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x1024.size a ≤ S30x1024.size a
  hwx0_3 : ∀ i : grid0.Coords, EltTy.bits .f32 = 32 ∨ (Rect.block (s := S30x1024) S30x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x30.size a ≤ S1x30.size a
  hwx0_4 : ∀ i : grid0.Coords, EltTy.bits .f32 = 32 ∨ (Rect.block (s := S1x30) S1x30.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x63.size a ≤ S65536x63.size a
  hwx0_5 : ∀ i : grid0.Coords, EltTy.bits .f32 = 32 ∨ (Rect.block (s := S65536x63) S2048x63.size (cc0_transform_5 i) (hinb0_5 i)).WholeWords (EltTy.packing .f32)

variable [Facts₀]

def dot_S2048x1024_S1024x5_S2048x5_1_0_0_1_n_n : DotDims S2048x1024 S1024x5 S2048x5 where
  lhsContracting := [1]
  rhsContracting := [0]
  lhsNonContracting := [0]
  rhsNonContracting := [1]
  lhsBatch := []
  rhsBatch := []
  wf := dot_S2048x1024_S1024x5_S2048x5_1_0_0_1_n_n_wf
def dot_S2048x1024_S1024x30_S2048x30_1_0_0_1_n_n : DotDims S2048x1024 S1024x30 S2048x30 where
  lhsContracting := [1]
  rhsContracting := [0]
  lhsNonContracting := [0]
  rhsNonContracting := [1]
  lhsBatch := []
  rhsBatch := []
  wf := dot_S2048x1024_S1024x30_S2048x30_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S30x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x30.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x63.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S5x1024 : Shape := ⟨2, ![5, 1024]⟩
abbrev S5 : Shape := ⟨1, ![5]⟩
abbrev S30x1024 : Shape := ⟨2, ![30, 1024]⟩
abbrev S30 : Shape := ⟨1, ![30]⟩
abbrev S32x2048x5 : Shape := ⟨3, ![32, 2048, 5]⟩
abbrev S1x1x5 : Shape := ⟨3, ![1, 1, 5]⟩
abbrev S_ : Shape := ⟨0, ![]⟩
abbrev S32x2048 : Shape := ⟨2, ![32, 2048]⟩
abbrev S32x2048x1 : Shape := ⟨3, ![32, 2048, 1]⟩
abbrev S32x2048x30 : Shape := ⟨3, ![32, 2048, 30]⟩
abbrev S1x1x30 : Shape := ⟨3, ![1, 1, 30]⟩
abbrev S32x2048x63 : Shape := ⟨3, ![32, 2048, 63]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S5x1024, .f32⟩
  | .hbm, ⟨2, _⟩ => ⟨S5, .f32⟩
  | .hbm, ⟨3, _⟩ => ⟨S30x1024, .f32⟩
  | .hbm, ⟨4, _⟩ => ⟨S30, .f32⟩
  | .hbm, ⟨5, _⟩ => ⟨S32x2048x5, .f32⟩
  | .hbm, ⟨6, _⟩ => ⟨S1x1x5, .f32⟩
  | .hbm, ⟨7, _⟩ => ⟨S32x2048x5, .f32⟩
  | .hbm, ⟨8, _⟩ => ⟨S32x2048x5, .f32⟩
  | .hbm, ⟨9, _⟩ => ⟨S_, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x2048x1, .f32⟩
  | .hbm, ⟨15, _⟩ => ⟨S32x2048x5, .f32⟩
  | .hbm, ⟨16, _⟩ => ⟨S32x2048x5, .f32⟩
  | .hbm, ⟨17, _⟩ => ⟨S32x2048x5, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S32x2048x5, .f32⟩
  | .hbm, ⟨22, _⟩ => ⟨S32x2048x5, .f32⟩
  | .hbm, ⟨23, _⟩ => ⟨S32x2048x30, .f32⟩
  | .hbm, ⟨24, _⟩ => ⟨S1x1x30, .f32⟩
  | .hbm, ⟨25, _⟩ => ⟨S32x2048x30, .f32⟩
  | .hbm, ⟨26, _⟩ => ⟨S32x2048x30, .f32⟩
  | .hbm, ⟨27, _⟩ => ⟨S_, .f32⟩
  | .hbm, ⟨28, _⟩ => ⟨S32x2048, .f32⟩
  | .hbm, ⟨29, _⟩ => ⟨S_, .f32⟩
  | .hbm, ⟨30, _⟩ => ⟨S32x2048, .f32⟩
  | .hbm, ⟨31, _⟩ => ⟨S32x2048, .f32⟩
  | .hbm, ⟨32, _⟩ => ⟨S32x2048x1, .f32⟩
  | .hbm, ⟨33, _⟩ => ⟨S32x2048x30, .f32⟩
  | .hbm, ⟨34, _⟩ => ⟨S32x2048x30, .f32⟩
  | .hbm, ⟨35, _⟩ => ⟨S32x2048x30, .f32⟩
  | .hbm, ⟨36, _⟩ => ⟨S_, .f32⟩
  | .hbm, ⟨37, _⟩ => ⟨S32x2048, .f32⟩
  | .hbm, ⟨38, _⟩ => ⟨S32x2048x1, .f32⟩
  | .hbm, ⟨39, _⟩ => ⟨S32x2048x30, .f32⟩
  | .hbm, ⟨40, _⟩ => ⟨S32x2048x30, .f32⟩
  | .hbm, ⟨41, _⟩ => ⟨S32x2048x1, .f32⟩
  | .hbm, ⟨42, _⟩ => ⟨S32x2048x1, .f32⟩
  | .hbm, ⟨43, _⟩ => ⟨S32x2048x1, .f32⟩
  | .hbm, ⟨44, _⟩ => ⟨S32x2048x1, .f32⟩
  | .hbm, ⟨45, _⟩ => ⟨S32x2048x1, .f32⟩
  | .hbm, ⟨46, _⟩ => ⟨S32x2048x30, .f32⟩
  | .hbm, ⟨47, _⟩ => ⟨S32x2048x30, .f32⟩
  | .hbm, ⟨48, _⟩ => ⟨S32x2048x30, .f32⟩
  | .hbm, ⟨49, _⟩ => ⟨S32x2048x30, .f32⟩
  | .hbm, ⟨50, _⟩ => ⟨S32x2048x63, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]

class Facts₀ : Prop where
  bcast_S5_S1x1x5_2 : S5.BroadcastsInDim S1x1x5 (![2] : Fin 1 → Fin S1x1x5.rank)
  bcast_S1x1x5_S32x2048x5_0_1_2 : S1x1x5.BroadcastsInDim S32x2048x5 (![0, 1, 2] : Fin 3 → Fin S32x2048x5.rank)
  reducesTo_S32x2048x5_S32x2048_d2 : S32x2048x5.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x5_0_1_2 : S32x2048x1.BroadcastsInDim S32x2048x5 (![0, 1, 2] : Fin 3 → Fin S32x2048x5.rank)
  bcast_S30_S1x1x30_2 : S30.BroadcastsInDim S1x1x30 (![2] : Fin 1 → Fin S1x1x30.rank)
  bcast_S1x1x30_S32x2048x30_0_1_2 : S1x1x30.BroadcastsInDim S32x2048x30 (![0, 1, 2] : Fin 3 → Fin S32x2048x30.rank)
  reducesTo_S32x2048x30_S32x2048_d2 : S32x2048x30.ReducesTo [2] S32x2048
  bcast_S32x2048x1_S32x2048x30_0_1_2 : S32x2048x1.BroadcastsInDim S32x2048x30 (![0, 1, 2] : Fin 3 → Fin S32x2048x30.rank)
  slices_S32x2048x5_S32x2048x1_0_0_0 : S32x2048x5.Slices ![0, 0, 0] S32x2048x1
  slices_S32x2048x5_S32x2048x1_0_0_1 : S32x2048x5.Slices ![0, 0, 1] S32x2048x1
  slices_S32x2048x5_S32x2048x1_0_0_2 : S32x2048x5.Slices ![0, 0, 2] S32x2048x1
  slices_S32x2048x5_S32x2048x1_0_0_3 : S32x2048x5.Slices ![0, 0, 3] S32x2048x1
  slices_S32x2048x5_S32x2048x1_0_0_4 : S32x2048x5.Slices ![0, 0, 4] S32x2048x1
  concatenates_S32x2048x1_S32x2048x1_S32x2048x1_S32x2048x30_S32x2048x30_S32x2048x63_d2 : Shape.Concatenates [S32x2048x1, S32x2048x1, S32x2048x1, S32x2048x30, S32x2048x30] S32x2048x63 2
  dot_S32x2048x1024_S5x1024_S32x2048x5_2_1_01_0_n_n_wf : DotDims.WF S32x2048x1024 S5x1024 S32x2048x5 [2] [1] [0, 1] [0] [] []
  dot_S32x2048x1024_S30x1024_S32x2048x30_2_1_01_0_n_n_wf : DotDims.WF S32x2048x1024 S30x1024 S32x2048x30 [2] [1] [0, 1] [0] [] []

variable [Facts₀]

def dot_S32x2048x1024_S5x1024_S32x2048x5_2_1_01_0_n_n : DotDims S32x2048x1024 S5x1024 S32x2048x5 where
  lhsContracting := [2]
  rhsContracting := [1]
  lhsNonContracting := [0, 1]
  rhsNonContracting := [0]
  lhsBatch := []
  rhsBatch := []
  wf := dot_S32x2048x1024_S5x1024_S32x2048x5_2_1_01_0_n_n_wf
def dot_S32x2048x1024_S30x1024_S32x2048x30_2_1_01_0_n_n : DotDims S32x2048x1024 S30x1024 S32x2048x30 where
  lhsContracting := [2]
  rhsContracting := [1]
  lhsNonContracting := [0, 1]
  rhsNonContracting := [0]
  lhsBatch := []
  rhsBatch := []
  wf := dot_S32x2048x1024_S30x1024_S32x2048x30_2_1_01_0_n_n_wf

class Facts : Prop extends Facts₀ where

variable [Facts]
-- ==== Proof.Spec.lean ====
/-
  The mathematics of the two action heads, one (batch, time) position at a time.

  A position carries an embedding `x ∈ ℝ̄^1024`. Two linear heads read it: the 5-way status head
  `x ↦ W_status x + b_status` and the 30-way flight head `x ↦ W_flight x + b_flight`; each is followed by a
  softmax, taken the numerically careful way: the row's largest logit (never below `-∞`, the value the running
  maximum starts from) is subtracted before exponentiating, and the exponentials are divided by their sum.
  With `ps` the five status probabilities and `pf` the thirty flight probabilities, the 63 action probabilities are
      ps 0, ps 2, ps 1, ps 4 · pf 0 … ps 4 · pf 29, ps 3 · pf 0 … ps 3 · pf 29
  (no flight, cancel, no reservation, book flight i, change to flight i).

  Everything is over the extended reals with the conventions the ideal instance gives `exp` and the quotient; no law
  of arithmetic is used anywhere: both programs compute these very expressions, they only lay the positions out
  differently (blocks of 2048 rows of a 65536-row matrix against a [32, 2048] array of positions).
-/
import Idealize.ShloMosaic.PureOps.Ideal
import Idealize.ShloMosaic.PureOps.Ideal.Laws
import Idealize.ShloMosaic.Lib.ValueIdx

noncomputable section

namespace ActionHeads

open Idealize.ShloMosaic Idealize.ShloMosaic.ValueIdx

/-- The value a running maximum starts from: the f32 word of `-∞`, as both programs spell it. -/
abbrev negInf : EReal := Ideal.ofBits .f32 0xFF800000#32

/-- One head's logits at a position: `(W x + b) s = ∑ k, x k · W s k + b s`. -/
def logit {n : Nat} (x : Fin 1024 → EReal) (W : Fin n → Fin 1024 → EReal) (b : Fin n → EReal) (s : Fin n) : EReal :=
  (∑ k : Fin 1024, x k * W s k) + b s

/-- The largest of a row of logits, folded from `-∞` and then compared with `-∞` once more, as jax's softmax does. -/
def rowMax {n : Nat} (l : Fin n → EReal) : EReal :=
  max negInf ((Finset.univ : Finset (Fin n)).fold max negInf l)

/-- The softmax of a row of logits: `exp (l s - M) / ∑ s', exp (l s' - M)` with `M` the row's maximum. -/
def softmax {n : Nat} (l : Fin n → EReal) (s : Fin n) : EReal :=
  Ideal.div (Ideal.exp (l s - rowMax l)) (∑ s' : Fin n, Ideal.exp (l s' - rowMax l))

/-- Five pieces laid side by side into 63 columns: three single entries, then two runs of thirty. -/
def sideBySide (c0 c1 c2 : EReal) (d0 d1 : Fin 30 → EReal) (j : Fin 63) : EReal :=
  if j.val < 1 then c0
  else if j.val < 2 then c1
  else if j.val < 3 then c2
  else if h : j.val < 33 then d0 ⟨j.val - 3, by omega⟩
  else d1 ⟨j.val - 33, by omega⟩

/-- The 63 action probabilities from the status probabilities `ps` and the flight probabilities `pf`. -/
def actions (ps : Fin 5 → EReal) (pf : Fin 30 → EReal) (j : Fin 63) : EReal :=
  sideBySide (ps 0) (ps 2) (ps 1) (fun f => ps 4 * pf f) (fun f => ps 3 * pf f) j

/-- The action probabilities of the position whose embedding is `x`. -/
def position (x : Fin 1024 → EReal) (Ws : Fin 5 → Fin 1024 → EReal) (bs : Fin 5 → EReal)
    (Wf : Fin 30 → Fin 1024 → EReal) (bf : Fin 30 → EReal) (j : Fin 63) : EReal :=
  actions (softmax (logit x Ws bs)) (softmax (logit x Wf bf)) j

/-- THE RESULT both programs return: the [32, 2048, 63] array whose entry `(b, t, j)` is action probability `j` of
    position `(b, t)`, from the embeddings [32, 2048, 1024], the heads' weights [n, 1024] and their biases [n]. -/
def result (X : (⟨3, ![32, 2048, 1024]⟩ : Shape).Idx → EReal) (Ws : (⟨2, ![5, 1024]⟩ : Shape).Idx → EReal)
    (bs : (⟨1, ![5]⟩ : Shape).Idx → EReal) (Wf : (⟨2, ![30, 1024]⟩ : Shape).Idx → EReal)
    (bf : (⟨1, ![30]⟩ : Shape).Idx → EReal) : (⟨3, ![32, 2048, 63]⟩ : Shape).Idx → EReal := fun i =>
  position (fun k => X (ix3 (⟨(i 0).val, (i 0).isLt⟩ : Fin 32) (⟨(i 1).val, (i 1).isLt⟩ : Fin 2048) k))
    (fun s k => Ws (ix2 s k)) (fun s => bs (ix1 s)) (fun f k => Wf (ix2 f k)) (fun f => bf (ix1 f))
    (⟨(i 2).val, (i 2).isLt⟩ : Fin 63)

theorem result_apply (X : (⟨3, ![32, 2048, 1024]⟩ : Shape).Idx → EReal) (Ws : (⟨2, ![5, 1024]⟩ : Shape).Idx → EReal)
    (bs : (⟨1, ![5]⟩ : Shape).Idx → EReal) (Wf : (⟨2, ![30, 1024]⟩ : Shape).Idx → EReal)
    (bf : (⟨1, ![30]⟩ : Shape).Idx → EReal) (b : Fin 32) (t : Fin 2048) (j : Fin 63) :
    result X Ws bs Wf bf (ix3 b t j)
      = position (fun k => X (ix3 b t k)) (fun s k => Ws (ix2 s k)) (fun s => bs (ix1 s)) (fun f k => Wf (ix2 f k))
          (fun f => bf (ix1 f)) j := rfl

theorem sideBySide_0 (c0 c1 c2 : EReal) (d0 d1 : Fin 30 → EReal) (j : Fin 63) (h : j.val = 0) :
    sideBySide c0 c1 c2 d0 d1 j = c0 := by
  unfold sideBySide; rw [if_pos (by omega)]
theorem sideBySide_1 (c0 c1 c2 : EReal) (d0 d1 : Fin 30 → EReal) (j : Fin 63) (h : j.val = 1) :
    sideBySide c0 c1 c2 d0 d1 j = c1 := by
  unfold sideBySide; rw [if_neg (by omega), if_pos (by omega)]
theorem sideBySide_2 (c0 c1 c2 : EReal) (d0 d1 : Fin 30 → EReal) (j : Fin 63) (h : j.val = 2) :
    sideBySide c0 c1 c2 d0 d1 j = c2 := by
  unfold sideBySide; rw [if_neg (by omega), if_neg (by omega), if_pos (by omega)]
theorem sideBySide_3 (c0 c1 c2 : EReal) (d0 d1 : Fin 30 → EReal) (j : Fin 63) (f : Fin 30) (h : j.val = 3 + f.val) :
    sideBySide c0 c1 c2 d0 d1 j = d0 f := by
  have hf := f.isLt
  unfold sideBySide
  rw [if_neg (by omega), if_neg (by omega), if_neg (by omega), dif_pos (by omega)]
  exact congrArg d0 (Fin.ext (by show j.val - 3 = f.val; omega))
theorem sideBySide_4 (c0 c1 c2 : EReal) (d0 d1 : Fin 30 → EReal) (j : Fin 63) (f : Fin 30) (h : j.val = 33 + f.val) :
    sideBySide c0 c1 c2 d0 d1 j = d1 f := by
  have hf := f.isLt
  unfold sideBySide
  rw [if_neg (by omega), if_neg (by omega), if_neg (by omega), dif_neg (by omega)]
  exact congrArg d1 (Fin.ext (by show j.val - 33 = f.val; omega))

/-- Every column of the 63 is one of the five cases. -/
theorem column_cases (j : Fin 63) :
    j.val = 0 ∨ j.val = 1 ∨ j.val = 2 ∨ (∃ f : Fin 30, j.val = 3 + f.val) ∨ (∃ f : Fin 30, j.val = 33 + f.val) := by
  have hj := j.isLt
  by_cases h3 : j.val < 3
  · omega
  · by_cases h33 : j.val < 33
    · exact Or.inr (Or.inr (Or.inr (Or.inl ⟨⟨j.val - 3, by omega⟩, by show j.val = 3 + (j.val - 3); omega⟩)))
    · exact Or.inr (Or.inr (Or.inr (Or.inr ⟨⟨j.val - 33, by omega⟩, by show j.val = 33 + (j.val - 33); omega⟩)))

end ActionHeads

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.KernelRows.lean ====
/-
  The kernel's arithmetic on one block of 2048 positions, read row by row.

  The body holds a [2048, 1024] block `x` of embeddings and the two heads' weights and biases whole. Each head's logits
  are `x Wᵀ + b` (the bias, a [1, n] row, repeated down the rows); the softmax is taken along each row: the row's
  maximum (folded from `-∞`) is put back over the columns and subtracted, the exponentials are divided by their row
  sum, likewise put back over the columns. Row `p` of every intermediate array therefore depends on row `p` of `x`
  alone, and is the position-wise expression of `ActionHeads` at that row.

  The first part is stated for a [2048, n] block of logits with `n` free, so that it serves the 5-way and the 30-way
  head alike.
-/
import proofs.«160497_j46969762349381_1_alg».proof.Proof.Gen.KernelIdeal.Frame
import proofs.«160497_j46969762349381_1_alg».proof.Proof.Spec
import proofs.«160497_j46969762349381_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen
open Idealize.ShloMosaic Idealize.ShloMosaic.ValueIdx ActionHeads KeepdimsLayout

/-! ## A softmax along the rows of a [2048, n] block -/

/-- Putting column `k` back into the row index `p` of the reduced array gives the entry `(p, k)`. -/
theorem lift_row {n : Nat} (hred : (⟨2, ![2048, n]⟩ : Shape).Reduces [1] S2048) (p : Fin 2048) (k : Fin n) :
    hred.lift (ix1 p) k = ix2 p k :=
  funext fun a => Fin.ext (by match a with | ⟨0, _⟩ => rfl | ⟨1, _⟩ => rfl)

/-- The rows' maxima, each folded from `-∞` and compared with `-∞` once more, put back over the columns. -/
def maxCols {n : Nat} (l : FVec Ideal ⟨2, ![2048, n]⟩ .f32) (hred : (⟨2, ![2048, n]⟩ : Shape).Reduces [1] S2048)
    (hsc : S2048.ShapeCasts S2048x1) (hb : S2048x1.Broadcasts ⟨2, ![2048, n]⟩) : FVec Ideal ⟨2, ![2048, n]⟩ .f32 :=
  broadcastTo ⟨2, ![2048, n]⟩ (shapeCast S2048x1 (maximumf (broadcast S2048 (Scalar.ofBits .f32 0xFF800000#32))
    (multiReduction .maximumf [1] S2048 l 0xFF800000#32 hred (.inl rfl) rfl)) hsc) hb

/-- At `(p, q)` that array holds the maximum of row `p`, whatever the column `q`. -/
theorem maxCols_apply {n : Nat} (l : FVec Ideal ⟨2, ![2048, n]⟩ .f32) (hred : (⟨2, ![2048, n]⟩ : Shape).Reduces [1] S2048)
    (hsc : S2048.ShapeCasts S2048x1) (hb : S2048x1.Broadcasts ⟨2, ![2048, n]⟩) (p : Fin 2048) (q : Fin n) :
    maxCols l hred hsc hb (ix2 p q) = rowMax fun s => l (ix2 p s) := by
  unfold maxCols
  rw [broadcastTo_a1_ab_apply, shapeCast_a_a1_apply]
  show max (Ideal.ofBits .f32 0xFF800000#32) (multiReduction .maximumf [1] S2048 l 0xFF800000#32 hred (.inl rfl) rfl (ix1 p)) = _
  have e : (l ∘ hred.lift (ix1 p)) = fun s : Fin n => l (ix2 p s) := funext fun k => congrArg l (lift_row hred p k)
  unfold rowMax
  refine congrArg (max (Ideal.ofBits .f32 0xFF800000#32))
    ((Ideal.multiReduction_maximumf_single l 0xFF800000#32 hred (.inl rfl) rfl (ix1 p)).trans ?_)
  exact congrArg (fun g => Finset.fold max (Ideal.ofBits .f32 0xFF800000#32) g Finset.univ) e

/-- A block divided by its row sums (the sums put back over the columns): entry `(p, s)` is the block's entry over
    the sum of row `p`. -/
theorem normalize_apply {n : Nat} (e : FVec Ideal ⟨2, ![2048, n]⟩ .f32) (hred : (⟨2, ![2048, n]⟩ : Shape).Reduces [1] S2048)
    (hsc : S2048.ShapeCasts S2048x1) (hb : S2048x1.Broadcasts ⟨2, ![2048, n]⟩) (p : Fin 2048) (s : Fin n) :
    divf e (broadcastTo ⟨2, ![2048, n]⟩ (shapeCast S2048x1 (multiReduction .add [1] S2048 e 0x00000000#32 hred (.inl rfl) rfl) hsc) hb) (ix2 p s)
      = Ideal.div (e (ix2 p s)) (∑ k : Fin n, e (ix2 p k)) := by
  rw [divf_apply, broadcastTo_a1_ab_apply, shapeCast_a_a1_apply]
  refine congrArg (Ideal.div (e (ix2 p s))) ((Ideal.multiReduction_add_single e 0x00000000#32 hred (.inl rfl) rfl (ix1 p)).trans ?_)
  exact Finset.sum_congr rfl fun k _ => congrArg e (lift_row hred p k)

/-- The softmax as the body spells it, at `(p, s)`: the softmax of row `p` of the logits, at `s`. -/
theorem softmax_apply {n : Nat} (l : FVec Ideal ⟨2, ![2048, n]⟩ .f32) (hred : (⟨2, ![2048, n]⟩ : Shape).Reduces [1] S2048)
    (hsc : S2048.ShapeCasts S2048x1) (hb : S2048x1.Broadcasts ⟨2, ![2048, n]⟩) (p : Fin 2048) (s : Fin n) :
    divf (exp (subf l (maxCols l hred hsc hb)))
        (broadcastTo ⟨2, ![2048, n]⟩ (shapeCast S2048x1 (multiReduction .add [1] S2048 (exp (subf l (maxCols l hred hsc hb))) 0x00000000#32 hred (.inl rfl) rfl) hsc) hb) (ix2 p s)
      = softmax (fun s' => l (ix2 p s')) s := by
  have hE : ∀ q : Fin n, exp (subf l (maxCols l hred hsc hb)) (ix2 p q) = Ideal.exp (l (ix2 p q) - rowMax fun s' => l (ix2 p s')) := fun q => by
    show Ideal.exp (l (ix2 p q) - maxCols l hred hsc hb (ix2 p q)) = _
    rw [maxCols_apply]
  rw [normalize_apply, hE s]
  unfold softmax
  exact congrArg (Ideal.div _) (Finset.sum_congr rfl fun k _ => hE k)

/-! ## The status head: its logits on the block -/

theorem lhs5_0 (i : S2048x5.Idx) (q : dot_S2048x1024_S1024x5_S2048x5_1_0_0_1_n_n.contr.Idx) :
    (dot_S2048x1024_S1024x5_S2048x5_1_0_0_1_n_n.lhsIdx i q 0).val = (i 0).val := by
  unfold DotDims.lhsIdx
  rw [dif_neg (show ¬(0 : Fin S2048x1024.rank) ∈ dot_S2048x1024_S1024x5_S2048x5_1_0_0_1_n_n.lhsBatch by decide), dif_pos (show (0 : Fin S2048x1024.rank) ∈ dot_S2048x1024_S1024x5_S2048x5_1_0_0_1_n_n.lhsNonContracting by decide)]
  rfl
theorem lhs5_1 (i : S2048x5.Idx) (q : dot_S2048x1024_S1024x5_S2048x5_1_0_0_1_n_n.contr.Idx) :
    (dot_S2048x1024_S1024x5_S2048x5_1_0_0_1_n_n.lhsIdx i q 1).val = (q ⟨0, by decide⟩).val :=
  dot_S2048x1024_S1024x5_S2048x5_1_0_0_1_n_n.lhsIdx_val_of_single rfl i q
theorem rhs5_0 (i : S2048x5.Idx) (q : dot_S2048x1024_S1024x5_S2048x5_1_0_0_1_n_n.contr.Idx) :
    (dot_S2048x1024_S1024x5_S2048x5_1_0_0_1_n_n.rhsIdx i q 0).val = (q ⟨0, by decide⟩).val :=
  dot_S2048x1024_S1024x5_S2048x5_1_0_0_1_n_n.rhsIdx_val_of_single rfl i q
theorem rhs5_1 (i : S2048x5.Idx) (q : dot_S2048x1024_S1024x5_S2048x5_1_0_0_1_n_n.contr.Idx) :
    (dot_S2048x1024_S1024x5_S2048x5_1_0_0_1_n_n.rhsIdx i q 1).val = (i 1).val := by
  unfold DotDims.rhsIdx
  rw [dif_neg (show ¬(1 : Fin S1024x5.rank) ∈ dot_S2048x1024_S1024x5_S2048x5_1_0_0_1_n_n.rhsBatch by decide), dif_pos (show (1 : Fin S1024x5.rank) ∈ dot_S2048x1024_S1024x5_S2048x5_1_0_0_1_n_n.rhsNonContracting by decide)]
  rfl

/-- The block times the transposed status weights, into a zero accumulator: entry `(p, s)` is `∑ k, x (p, k) · W (s, k)`. -/
theorem matmul5_apply (x : FVec Ideal S2048x1024 .f32) (W : FVec Ideal S5x1024 .f32) (p : Fin 2048) (s : Fin 5) :
    matmul dot_S2048x1024_S1024x5_S2048x5_1_0_0_1_n_n none x (transpose S1024x5 [1, 0] W Facts₀.transposes_S5x1024_p1_0_S1024x5)
        (constant S2048x5 .f32 0x00000000#32) (ix2 p s)
      = ∑ k : Fin 1024, x (ix2 p k) * W (ix2 s k) := by
  simp only [matmul]
  rw [Ideal.matmul_constant_zero_apply, ← Equiv.sum_comp (ValueIdx.contrEquiv1 dot_S2048x1024_S1024x5_S2048x5_1_0_0_1_n_n 1024 rfl rfl).symm]
  refine Finset.sum_congr rfl fun k _ => ?_
  have hk := ValueIdx.contrEquiv1_symm_val dot_S2048x1024_S1024x5_S2048x5_1_0_0_1_n_n 1024 rfl rfl k
  have el : dot_S2048x1024_S1024x5_S2048x5_1_0_0_1_n_n.lhsIdx (ix2 p s) ((ValueIdx.contrEquiv1 dot_S2048x1024_S1024x5_S2048x5_1_0_0_1_n_n 1024 rfl rfl).symm k) = ix2 p k := funext fun a => Fin.ext (by
    match a with
    | ⟨0, _⟩ => exact lhs5_0 _ _
    | ⟨1, _⟩ => exact (lhs5_1 _ _).trans hk)
  have er : dot_S2048x1024_S1024x5_S2048x5_1_0_0_1_n_n.rhsIdx (ix2 p s) ((ValueIdx.contrEquiv1 dot_S2048x1024_S1024x5_S2048x5_1_0_0_1_n_n 1024 rfl rfl).symm k) = ix2 k s := funext fun a => Fin.ext (by
    match a with
    | ⟨0, _⟩ => exact (rhs5_0 _ _).trans hk
    | ⟨1, _⟩ => exact rhs5_1 _ _)
  rw [el, er, transpose_ix2_apply]

/-- The status head's logits on the block, at `(p, s)`: the logits of the position in row `p`. -/
theorem logits5_apply (x : FVec Ideal S2048x1024 .f32) (W : FVec Ideal S5x1024 .f32) (b : FVec Ideal S1x5 .f32) (p : Fin 2048) (s : Fin 5) :
    addf (matmul dot_S2048x1024_S1024x5_S2048x5_1_0_0_1_n_n none (k0_pay2 (F := Ideal) x) (transpose S1024x5 [1, 0] W Facts₀.transposes_S5x1024_p1_0_S1024x5)
          (constant S2048x5 .f32 0x00000000#32))
        (broadcastTo S2048x5 (shapeCast S1x5 b Facts₀.shapeCasts_S1x5_S1x5) Facts₀.broadcasts_S1x5_S2048x5) (ix2 p s)
      = logit (fun k => x (ix2 p k)) (fun s' k => W (ix2 s' k)) (fun s' => b (ix2 0 s')) s := by
  rw [addf_apply, broadcastTo_1b_ab_apply, shapeCast_self]
  unfold k0_pay2
  rw [shapeCast_self, matmul5_apply]
  rfl

/-! ## The flight head: its logits on the block -/

theorem lhs30_0 (i : S2048x30.Idx) (q : dot_S2048x1024_S1024x30_S2048x30_1_0_0_1_n_n.contr.Idx) :
    (dot_S2048x1024_S1024x30_S2048x30_1_0_0_1_n_n.lhsIdx i q 0).val = (i 0).val := by
  unfold DotDims.lhsIdx
  rw [dif_neg (show ¬(0 : Fin S2048x1024.rank) ∈ dot_S2048x1024_S1024x30_S2048x30_1_0_0_1_n_n.lhsBatch by decide), dif_pos (show (0 : Fin S2048x1024.rank) ∈ dot_S2048x1024_S1024x30_S2048x30_1_0_0_1_n_n.lhsNonContracting by decide)]
  rfl
theorem lhs30_1 (i : S2048x30.Idx) (q : dot_S2048x1024_S1024x30_S2048x30_1_0_0_1_n_n.contr.Idx) :
    (dot_S2048x1024_S1024x30_S2048x30_1_0_0_1_n_n.lhsIdx i q 1).val = (q ⟨0, by decide⟩).val :=
  dot_S2048x1024_S1024x30_S2048x30_1_0_0_1_n_n.lhsIdx_val_of_single rfl i q
theorem rhs30_0 (i : S2048x30.Idx) (q : dot_S2048x1024_S1024x30_S2048x30_1_0_0_1_n_n.contr.Idx) :
    (dot_S2048x1024_S1024x30_S2048x30_1_0_0_1_n_n.rhsIdx i q 0).val = (q ⟨0, by decide⟩).val :=
  dot_S2048x1024_S1024x30_S2048x30_1_0_0_1_n_n.rhsIdx_val_of_single rfl i q
theorem rhs30_1 (i : S2048x30.Idx) (q : dot_S2048x1024_S1024x30_S2048x30_1_0_0_1_n_n.contr.Idx) :
    (dot_S2048x1024_S1024x30_S2048x30_1_0_0_1_n_n.rhsIdx i q 1).val = (i 1).val := by
  unfold DotDims.rhsIdx
  rw [dif_neg (show ¬(1 : Fin S1024x30.rank) ∈ dot_S2048x1024_S1024x30_S2048x30_1_0_0_1_n_n.rhsBatch by decide), dif_pos (show (1 : Fin S1024x30.rank) ∈ dot_S2048x1024_S1024x30_S2048x30_1_0_0_1_n_n.rhsNonContracting by decide)]
  rfl

/-- The block times the transposed flight weights, into a zero accumulator: entry `(p, f)` is `∑ k, x (p, k) · W (f, k)`. -/
theorem matmul30_apply (x : FVec Ideal S2048x1024 .f32) (W : FVec Ideal S30x1024 .f32) (p : Fin 2048) (f : Fin 30) :
    matmul dot_S2048x1024_S1024x30_S2048x30_1_0_0_1_n_n none x (transpose S1024x30 [1, 0] W Facts₀.transposes_S30x1024_p1_0_S1024x30)
        (constant S2048x30 .f32 0x00000000#32) (ix2 p f)
      = ∑ k : Fin 1024, x (ix2 p k) * W (ix2 f k) := by
  simp only [matmul]
  rw [Ideal.matmul_constant_zero_apply, ← Equiv.sum_comp (ValueIdx.contrEquiv1 dot_S2048x1024_S1024x30_S2048x30_1_0_0_1_n_n 1024 rfl rfl).symm]
  refine Finset.sum_congr rfl fun k _ => ?_
  have hk := ValueIdx.contrEquiv1_symm_val dot_S2048x1024_S1024x30_S2048x30_1_0_0_1_n_n 1024 rfl rfl k
  have el : dot_S2048x1024_S1024x30_S2048x30_1_0_0_1_n_n.lhsIdx (ix2 p f) ((ValueIdx.contrEquiv1 dot_S2048x1024_S1024x30_S2048x30_1_0_0_1_n_n 1024 rfl rfl).symm k) = ix2 p k := funext fun a => Fin.ext (by
    match a with
    | ⟨0, _⟩ => exact lhs30_0 _ _
    | ⟨1, _⟩ => exact (lhs30_1 _ _).trans hk)
  have er : dot_S2048x1024_S1024x30_S2048x30_1_0_0_1_n_n.rhsIdx (ix2 p f) ((ValueIdx.contrEquiv1 dot_S2048x1024_S1024x30_S2048x30_1_0_0_1_n_n 1024 rfl rfl).symm k) = ix2 k f := funext fun a => Fin.ext (by
    match a with
    | ⟨0, _⟩ => exact (rhs30_0 _ _).trans hk
    | ⟨1, _⟩ => exact rhs30_1 _ _)
  rw [el, er, transpose_ix2_apply]

/-- The flight head's logits on the block, at `(p, f)`: the logits of the position in row `p`. -/
theorem logits30_apply (x : FVec Ideal S2048x1024 .f32) (W : FVec Ideal S30x1024 .f32) (b : FVec Ideal S1x30 .f32) (p : Fin 2048) (f : Fin 30) :
    addf (matmul dot_S2048x1024_S1024x30_S2048x30_1_0_0_1_n_n none (k0_pay2 (F := Ideal) x) (transpose S1024x30 [1, 0] W Facts₀.transposes_S30x1024_p1_0_S1024x30)
          (constant S2048x30 .f32 0x00000000#32))
        (broadcastTo S2048x30 (shapeCast S1x30 b Facts₀.shapeCasts_S1x30_S1x30) Facts₀.broadcasts_S1x30_S2048x30) (ix2 p f)
      = logit (fun k => x (ix2 p k)) (fun f' k => W (ix2 f' k)) (fun f' => b (ix2 0 f')) f := by
  rw [addf_apply, broadcastTo_1b_ab_apply, shapeCast_self]
  unfold k0_pay2
  rw [shapeCast_self, matmul30_apply]
  rfl

/-! ## The body's payloads on the block -/

/-- The status probabilities the body computes, at `(p, s)`: those of the position in row `p`. -/
theorem status_apply (x : FVec Ideal S2048x1024 .f32) (W : FVec Ideal S5x1024 .f32) (b : FVec Ideal S1x5 .f32) (p : Fin 2048) (s : Fin 5) :
    k0_pay3 (F := Ideal) x W b (ix2 p s)
      = softmax (logit (fun k => x (ix2 p k)) (fun s' k => W (ix2 s' k)) (fun s' => b (ix2 0 s'))) s := by
  unfold k0_pay3
  exact (softmax_apply (n := 5) _ Facts₀.reduces_S2048x5_S2048 Facts₀.shapeCasts_S2048_S2048x1 Facts₀.broadcasts_S2048x1_S2048x5 p s).trans
    (congrArg (fun l => softmax l s) (funext fun s' => logits5_apply x W b p s'))

/-- The flight probabilities the body computes, at `(p, f)`: those of the position in row `p`. -/
theorem flight_apply (x : FVec Ideal S2048x1024 .f32) (W : FVec Ideal S30x1024 .f32) (b : FVec Ideal S1x30 .f32) (p : Fin 2048) (f : Fin 30) :
    k0_pay4 (F := Ideal) x W b (ix2 p f)
      = softmax (logit (fun k => x (ix2 p k)) (fun f' k => W (ix2 f' k)) (fun f' => b (ix2 0 f'))) f := by
  unfold k0_pay4
  exact (softmax_apply (n := 30) _ Facts₀.reduces_S2048x30_S2048 Facts₀.shapeCasts_S2048_S2048x1 Facts₀.broadcasts_S2048x1_S2048x30 p f).trans
    (congrArg (fun l => softmax l f) (funext fun f' => logits30_apply x W b p f'))

/-! ## The block of action probabilities -/

/-- Column `c` of a [2048, 5] block cut out as a single column, read at row `p`. -/
theorem column_apply (v : FVec Ideal S2048x5 .f32) (c : Nat) (hc : c < 5) (h : S2048x5.Slices ![0, c] S2048x1) (p : Fin 2048) :
    extractStridedSlice S2048x1 ![0, c] v h (ix2 p (0 : Fin 1)) = v (ix2 p ⟨c, hc⟩) :=
  extractStridedSlice_apply _ v h (ix2 p (0 : Fin 1)) (ix2 p ⟨c, hc⟩) fun a => by
    match a with
    | ⟨0, _⟩ => show p.val = 0 + p.val; omega
    | ⟨1, _⟩ => show c = c + 0; omega

/-- Five pieces side by side along the columns — three single columns, then two of thirty columns — read at `(p, j)`. -/
theorem concat63_apply (c0 c1 c2 : FVec Ideal S2048x1 .f32) (d0 d1 : FVec Ideal S2048x30 .f32)
    (h : Shape.Concatenates [S2048x1, S2048x1, S2048x1, S2048x30, S2048x30] S2048x63 1) (p : Fin 2048) (j : Fin 63) :
    concatenate S2048x63 1 [⟨S2048x1, c0⟩, ⟨S2048x1, c1⟩, ⟨S2048x1, c2⟩, ⟨S2048x30, d0⟩, ⟨S2048x30, d1⟩] h (ix2 p j)
      = sideBySide (c0 (ix2 p 0)) (c1 (ix2 p 0)) (c2 (ix2 p 0)) (fun f => d0 (ix2 p f)) (fun f => d1 (ix2 p f)) j := by
  rcases column_cases j with hj | hj | hj | ⟨f, hj⟩ | ⟨f, hj⟩
  · rw [sideBySide_0 _ _ _ _ _ j hj]
    exact concatenate_apply_piece (t := S2048x63) (1 : Fin 2) [⟨S2048x1, c0⟩, ⟨S2048x1, c1⟩, ⟨S2048x1, c2⟩, ⟨S2048x30, d0⟩, ⟨S2048x30, d1⟩] h (ix2 p j) 0 (by show 0 < 5; omega) S2048x1 c0 rfl rfl 0 rfl (ix2 p 0)
      (fun b hb => by match b with | ⟨0, _⟩ => rfl | ⟨1, _⟩ => exact absurd rfl hb) (by show 0 + 0 = j.val; omega)
  · rw [sideBySide_1 _ _ _ _ _ j hj]
    exact concatenate_apply_piece (t := S2048x63) (1 : Fin 2) [⟨S2048x1, c0⟩, ⟨S2048x1, c1⟩, ⟨S2048x1, c2⟩, ⟨S2048x30, d0⟩, ⟨S2048x30, d1⟩] h (ix2 p j) 1 (by show 1 < 5; omega) S2048x1 c1 rfl rfl 1 rfl (ix2 p 0)
      (fun b hb => by match b with | ⟨0, _⟩ => rfl | ⟨1, _⟩ => exact absurd rfl hb) (by show 1 + 0 = j.val; omega)
  · rw [sideBySide_2 _ _ _ _ _ j hj]
    exact concatenate_apply_piece (t := S2048x63) (1 : Fin 2) [⟨S2048x1, c0⟩, ⟨S2048x1, c1⟩, ⟨S2048x1, c2⟩, ⟨S2048x30, d0⟩, ⟨S2048x30, d1⟩] h (ix2 p j) 2 (by show 2 < 5; omega) S2048x1 c2 rfl rfl 2 rfl (ix2 p 0)
      (fun b hb => by match b with | ⟨0, _⟩ => rfl | ⟨1, _⟩ => exact absurd rfl hb) (by show 2 + 0 = j.val; omega)
  · rw [sideBySide_3 _ _ _ _ _ j f hj]
    exact concatenate_apply_piece (t := S2048x63) (1 : Fin 2) [⟨S2048x1, c0⟩, ⟨S2048x1, c1⟩, ⟨S2048x1, c2⟩, ⟨S2048x30, d0⟩, ⟨S2048x30, d1⟩] h (ix2 p j) 3 (by show 3 < 5; omega) S2048x30 d0 rfl rfl 3 rfl (ix2 p f)
      (fun b hb => by match b with | ⟨0, _⟩ => rfl | ⟨1, _⟩ => exact absurd rfl hb) (by show 3 + f.val = j.val; omega)
  · rw [sideBySide_4 _ _ _ _ _ j f hj]
    exact concatenate_apply_piece (t := S2048x63) (1 : Fin 2) [⟨S2048x1, c0⟩, ⟨S2048x1, c1⟩, ⟨S2048x1, c2⟩, ⟨S2048x30, d0⟩, ⟨S2048x30, d1⟩] h (ix2 p j) 4 (by show 4 < 5; omega) S2048x30 d1 rfl rfl 33 rfl (ix2 p f)
      (fun b hb => by match b with | ⟨0, _⟩ => rfl | ⟨1, _⟩ => exact absurd rfl hb) (by show 33 + f.val = j.val; omega)

/-- A status column repeated over thirty columns and multiplied into the flight probabilities, at `(p, f)`. -/
theorem outer_apply (v : FVec Ideal S2048x5 .f32) (w : FVec Ideal S2048x30 .f32) (c : Nat) (hc : c < 5) (h : S2048x5.Slices ![0, c] S2048x1)
    (p : Fin 2048) (f : Fin 30) :
    mulf (broadcastTo S2048x30 (extractStridedSlice S2048x1 ![0, c] v h) Facts₀.broadcasts_S2048x1_S2048x30) w (ix2 p f)
      = v (ix2 p ⟨c, hc⟩) * w (ix2 p f) := by
  rw [mulf_apply, broadcastTo_a1_ab_apply, column_apply v c hc]

theorem hz : (![0, 0] : Fin 2 → Nat) = fun _ => 0 := funext fun a => by fin_cases a <;> rfl

/-- WHAT THE BODY LEAVES IN THE OUTPUT BLOCK: at `(p, j)`, action probability `j` of the position whose embedding is
    row `p` of the input block. -/
theorem block_apply (x0 : Vec Ideal S2048x1024 .f32) (x1 : Vec Ideal S5x1024 .f32) (x2 : Vec Ideal S1x5 .f32)
    (x3 : Vec Ideal S30x1024 .f32) (x4 : Vec Ideal S1x30 .f32) (p : Fin 2048) (j : Fin 63) :
    out0_5 x0 x1 x2 x3 x4 (ix2 p j)
      = position (fun k => x0 (ix2 p k)) (fun s k => x1 (ix2 s k)) (fun s => x2 (ix2 0 s))
          (fun f k => x3 (ix2 f k)) (fun f => x4 (ix2 0 f)) j := by
  unfold out0_5
  rw [View.canon_unit_zero hz]
  simp only [View.ld_unit_zero (S := S2048x1024) hz, View.ld_unit_zero (S := S5x1024) hz, View.ld_unit_zero (S := S1x5) hz,
    View.ld_unit_zero (S := S30x1024) hz, View.ld_unit_zero (S := S1x30) hz]
  unfold k0_pay1 k0_pay5 k0_pay6 k0_pay7
  refine (concat63_apply _ _ _ _ _ _ p j).trans ?_
  unfold position actions
  rw [column_apply _ 0 (by decide), column_apply _ 2 (by decide), column_apply _ 1 (by decide)]
  simp only [outer_apply _ _ 4 (by decide), outer_apply _ _ 3 (by decide), status_apply, flight_apply]
  rfl

end Cert.KernelIdeal.Rows

end
-- ==== Proof.KernelArr.lean ====
/-
  From the blocks to the array, and from the array to the result.

  The kernel's one region walks the 65536 rows of the flattened embeddings in 32 blocks of 2048 rows; at point `t` it
  reads rows `2048 t … 2048 t + 2047` (and the weights and biases whole) and writes rows `2048 t … 2048 t + 2047` of the
  [65536, 63] output. Since row `p` of an output block depends on row `p` of the input block alone, what point `t` writes is
  block `t` of ONE function of the arrays the region finds: row `r` of the output is the action probabilities of the
  position whose embedding is row `r`. The 32 blocks cover the output, so after the region it holds that function.

  Around the region the host only relabels: the embeddings [32, 2048, 1024] are flattened to [65536, 1024] before it
  (row `2048 b + t` is position `(b, t)`), the biases become rows [1, n], and the output is folded back to
  [32, 2048, 63] afterwards.
-/
import proofs.«160497_j46969762349381_1_alg».proof.Proof.Gen.KernelIdeal.Frame
import proofs.«160497_j46969762349381_1_alg».proof.Proof.KernelRows
import Idealize.ShloMosaic.Lib.Pipeline.Value
import Idealize.ShloMosaic.Lib.StableHlo.Run

set_option maxRecDepth 16384

noncomputable section

namespace Cert.KernelIdeal.Arr

open Cert.KernelIdeal Cert.KernelIdeal.Gen Cert.KernelIdeal.Rows
open Idealize.ShloMosaic Idealize.ShloMosaic.TcCoe Idealize.ShloMosaic.ValueIdx Idealize.SL.Sem ActionHeads
open Idealize.ShloMosaic.Pipeline (Dat)

variable (m : (ℓ : Loc nD τ sig) → Buf (Elt Ideal) ℓ) (ρ : Dev nD → PrngReg)

/-! ## One function for the whole output array -/

/-- Row `r` of the output: the action probabilities of the position whose embedding is row `r` of `A`. -/
def rowsOut (A : S65536x1024.Idx → EReal) (W1 : S5x1024.Idx → EReal) (B1 : S1x5.Idx → EReal)
    (W2 : S30x1024.Idx → EReal) (B2 : S1x30.Idx → EReal) : S65536x63.Idx → EReal := fun i =>
  position (fun k => A (ix2 (⟨(i 0).val, idx2_lt0 i⟩ : Fin 65536) k)) (fun s k => W1 (ix2 s k)) (fun s => B1 (ix2 0 s))
    (fun f k => W2 (ix2 f k)) (fun f => B2 (ix2 0 f)) (⟨(i 1).val, idx2_lt1 i⟩ : Fin 63)

/-- Where the windows' blocks sit at point `t`: the embeddings' and the output's at block row `t`, the weights and biases
    whole. Decided over the 32 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 32 := lt_of_lt_of_eq t.isLt N_0

/-- The embeddings' block at point `t`, at `(p, k)`: row `2048 t + p` of the flattened embeddings. -/
theorem xblock_apply (c : Dev nD) (t : Fin cfg0.N) (p : Fin 2048) (k : Fin 1024) :
    (iblk m c 0 t : Vec Ideal S2048x1024 .f32) (ix2 p k)
      = V m c main_v0 (ix2 (⟨t.val * 2048 + p.val, by have := point_lt t; omega⟩ : Fin 65536) k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 2048 + 1 * p.val = t.val * 2048 + p.val; rw [e0]; omega
  | ⟨1, _⟩ => show win0_0.index t (1 : Fin 2) * 1024 + 1 * k.val = k.val; rw [e1]; omega

/-- The status weights' block at any point is the whole array. -/
theorem w1block_eq (c : Dev nD) (t : Fin cfg0.N) : (iblk m c 1 t : Vec Ideal S5x1024 .f32) = V m c main_arg1 := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 5 + 1 * (y 0).val = (y 0).val; rw [e0]; omega
  | ⟨1, _⟩ => show win0_1.index t (1 : Fin 2) * 1024 + 1 * (y 1).val = (y 1).val; rw [e1]; omega

/-- The status bias row's block at any point is the whole array. -/
theorem b1block_eq (c : Dev nD) (t : Fin cfg0.N) : (iblk m c 2 t : Vec Ideal S1x5 .f32) = V m c main_v1 := by
  obtain ⟨-, -, -, -, e0, e1, -⟩ := idx_facts t
  funext y
  unfold iblk
  rw [View.read_apply]
  show V m c main_v1 _ = V m c main_v1 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 5 + 1 * (y 1).val = (y 1).val; rw [e1]; omega

/-- The flight weights' block at any point is the whole array. -/
theorem w2block_eq (c : Dev nD) (t : Fin cfg0.N) : (iblk m c 3 t : Vec Ideal S30x1024 .f32) = V m c main_arg3 := by
  obtain ⟨-, -, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 30 + 1 * (y 0).val = (y 0).val; rw [e0]; omega
  | ⟨1, _⟩ => show win0_3.index t (1 : Fin 2) * 1024 + 1 * (y 1).val = (y 1).val; rw [e1]; omega

/-- The flight bias row's block at any point is the whole array. -/
theorem b2block_eq (c : Dev nD) (t : Fin cfg0.N) : (iblk m c 4 t : Vec Ideal S1x30 .f32) = V m c main_v2 := by
  obtain ⟨-, -, -, -, -, -, -, -, e0, e1, -⟩ := idx_facts t
  funext y
  unfold iblk
  rw [View.read_apply]
  show V m c main_v2 _ = V m c main_v2 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 30 + 1 * (y 1).val = (y 1).val; rw [e1]; omega

/-- WHAT POINT `t` WRITES BACK is block `t` of `rowsOut` of the arrays the region finds. -/
theorem flushed_eq (c : Dev nD) (t : Fin cfg0.N) :
    (dats m 0 c).flushed 5 t = ((cfg0.win 5).blk t).view.read (Elt Ideal)
      (rowsOut (V m c main_v0) (V m c main_arg1) (V m c main_v1) (V m c main_arg3) (V m c main_v2)) := by
  show (cfg0.win 5).cut (grid0.coords t) ((dats m 0 c).after 5 t) = _
  rw [after0_5]
  obtain ⟨-, -, -, -, -, -, -, -, -, -, e0, e1⟩ := idx_facts t
  funext y
  show out0_5 (iblk m c 0 t) (iblk m c 1 t) (iblk m c 2 t) (iblk m c 3 t) (iblk m c 4 t) y
    = rowsOut (V m c main_v0) (V m c main_arg1) (V m c main_v1) (V m c main_arg3) (V m c main_v2) (((cfg0.win 5).blk t).view.emb y)
  obtain ⟨p, j, rfl⟩ : ∃ (p : Fin 2048) (j : Fin 63), y = ix2 p j := ⟨y 0, y 1, eq_ix2 y⟩
  rw [block_apply, w1block_eq, b1block_eq, w2block_eq, b2block_eq]
  unfold rowsOut
  have hr : (⟨((((cfg0.win 5).blk t).view.emb (ix2 p j)) 0).val, idx2_lt0 _⟩ : Fin 65536)
      = ⟨t.val * 2048 + p.val, by have := point_lt t; omega⟩ := Fin.ext (by
    show win0_5.index t (0 : Fin 2) * 2048 + 1 * p.val = t.val * 2048 + p.val; rw [e0]; omega)
  have hj : (⟨((((cfg0.win 5).blk t).view.emb (ix2 p j)) 1).val, idx2_lt1 _⟩ : Fin 63) = j := Fin.ext (by
    show win0_5.index t (1 : Fin 2) * 63 + 1 * j.val = j.val; rw [e1]; omega)
  rw [hr, hj]
  exact congrArg (fun X => position X _ _ _ _ j) (funext fun k => xblock_apply m c t p k)

/-- An index of the output is in point `t`'s block iff each coordinate is in the block's range on its axis. -/
theorem mem_blk (t : Fin cfg0.N) (i : S65536x63.Idx) :
    i ∈ ((cfg0.win 5).blk t).view.set ↔ ∀ a : Fin 2, win0_5.index t a * S2048x63.size a ≤ (i a).val ∧ (i a).val < win0_5.index t a * S2048x63.size a + S2048x63.size a := by
  show i ∈ ((View.whole main_v3).slice (win0_5.rect t)).set ↔ _
  rw [View.set_slice_whole, Rect.mem_set_unit]
  exact Iff.rfl

/-- THE OUTPUT ARRAY after the region: `rowsOut` of the arrays the region finds (row `r` lies in block `r / 2048`). -/
theorem final (c : Dev nD) : (dats m 0 c).arrAt 5 cfg0.N
    = rowsOut (V m c main_v0) (V m c main_arg1) (V m c main_v1) (V m c main_arg3) (V m c main_v2) :=
  (dats m 0 c).arrAt_eq_of_cover 5 _ (fun t _ => flushed_eq m c t) fun i => by
    have hi0 : (i 0).val < 65536 := (i 0).isLt
    have hi1 : (i 1).val < 63 := (i 1).isLt
    have hN : (i 0).val / 2048 < cfg0.N := by rw [show cfg0.N = 32 from N_0]; omega
    refine ⟨⟨(i 0).val / 2048, hN⟩, flush0_5 _, ?_⟩
    obtain ⟨-, -, -, -, -, -, -, -, -, -, e0, e1⟩ := idx_facts ⟨(i 0).val / 2048, hN⟩
    rw [mem_blk]
    intro a
    match a with
    | ⟨0, _⟩ =>
      show win0_5.index ⟨(i 0).val / 2048, hN⟩ (0 : Fin 2) * 2048 ≤ (i 0).val ∧ (i 0).val < win0_5.index ⟨(i 0).val / 2048, hN⟩ (0 : Fin 2) * 2048 + 2048
      rw [e0]; show (i 0).val / 2048 * 2048 ≤ (i 0).val ∧ (i 0).val < (i 0).val / 2048 * 2048 + 2048; omega
    | ⟨1, _⟩ =>
      show win0_5.index ⟨(i 0).val / 2048, hN⟩ (1 : Fin 2) * 63 ≤ (i 1).val ∧ (i 1).val < win0_5.index ⟨(i 0).val / 2048, hN⟩ (1 : Fin 2) * 63 + 63
      rw [e1]; omega

end Cert.KernelIdeal.Arr

end
-- ==== Proof.KernelRun.lean ====
/-
  The idealized kernel's run, read: its result array is `ActionHeads.result` of its arguments.

  Before the region the host flattens the embeddings [32, 2048, 1024] to [65536, 1024] — row `2048 b + t` is position
  `(b, t)` — and makes the biases rows [1, n]; after it, the [65536, 63] output is folded back to [32, 2048, 63]. So entry
  `(b, t, j)` of the result is entry `(2048 b + t, j)` of the region's output: action probability `j` of the position whose
  embedding is row `2048 b + t` of the flattened array, that is, of position `(b, t)`.
-/
import proofs.«160497_j46969762349381_1_alg».proof.Proof.KernelArr
import Idealize.ShloMosaic.Lib.ValueLayout

set_option maxRecDepth 16384

noncomputable section

namespace Cert.KernelIdeal.Arr

open Cert.KernelIdeal Cert.KernelIdeal.Gen Cert.KernelIdeal.Rows
open Idealize.ShloMosaic Idealize.ShloMosaic.TcCoe Idealize.ShloMosaic.ValueIdx Idealize.SL.Sem ActionHeads
open Idealize.ShloMosaic.Pipeline (Dat)

variable (m : (ℓ : Loc nD τ sig) → Buf (Elt Ideal) ℓ) (ρ : Dev nD → PrngReg)

theorem rowsOut_apply (A : S65536x1024.Idx → EReal) (W1 : S5x1024.Idx → EReal) (B1 : S1x5.Idx → EReal)
    (W2 : S30x1024.Idx → EReal) (B2 : S1x30.Idx → EReal) (r : Fin 65536) (j : Fin 63) :
    rowsOut A W1 B1 W2 B2 (ix2 r j)
      = position (fun k => A (ix2 r k)) (fun s k => W1 (ix2 s k)) (fun s => B1 (ix2 0 s)) (fun f k => W2 (ix2 f k))
          (fun f => B2 (ix2 0 f)) j := rfl

/-! ## The host's relabelling before the region -/

/-- The flattened embeddings the region finds: row `2048 b + t`, column `k` is the embedding of `(b, t)` at `k`. -/
theorem flat_apply (c : Dev nD) (b : Fin 32) (t : Fin 2048) (k : Fin 1024) :
    V m c main_v0 (ix2 (⟨b.val * 2048 + t.val, by omega⟩ : Fin 65536) k) = m ((c : Thread nD τ).loc main_arg0) (ix3 b t k) := by
  have e : (V m c main_v0 : S65536x1024.Idx → EReal)
      = shapeCast S65536x1024 (m ((c : Thread nD τ).loc main_arg0)) Facts₀.shapeCasts_S32x2048x1024_S65536x1024 := by
    show StableHlo.after hostOps0 (fun b => m (c, b)) (Proc.devRef .tc main_v0) = _
    after_results
    rfl
  rw [e]
  exact shapeCast_apply _ _ _ (ix3 b t k) (by
    rw [Shape.rowMajor_val_three, Shape.rowMajor_val_two]
    show (b.val * 2048 + t.val) * 1024 + k.val = (b.val * 2048 + t.val) * 1024 + k.val
    rfl)

/-- The status bias as the row the region finds. -/
theorem bias1_apply (c : Dev nD) (s : Fin 5) :
    V m c main_v1 (ix2 (0 : Fin 1) s) = m ((c : Thread nD τ).loc main_arg2) (ix1 s) := by
  have e : (V m c main_v1 : S1x5.Idx → EReal)
      = shapeCast S1x5 (m ((c : Thread nD τ).loc main_arg2)) Facts₀.shapeCasts_S5_S1x5 := by
    show StableHlo.after hostOps0 (fun b => m (c, b)) (Proc.devRef .tc main_v1) = _
    after_results
    rfl
  rw [e]
  exact shapeCast_a_1a_apply _ _ (0 : Fin 1) s

/-- The flight bias as the row the region finds. -/
theorem bias2_apply (c : Dev nD) (f : Fin 30) :
    V m c main_v2 (ix2 (0 : Fin 1) f) = m ((c : Thread nD τ).loc main_arg4) (ix1 f) := by
  have e : (V m c main_v2 : S1x30.Idx → EReal)
      = shapeCast S1x30 (m ((c : Thread nD τ).loc main_arg4)) Facts₀.shapeCasts_S30_S1x30 := by
    show StableHlo.after hostOps0 (fun b => m (c, b)) (Proc.devRef .tc main_v2) = _
    after_results
    rfl
  rw [e]
  exact shapeCast_a_1a_apply _ _ (0 : Fin 1) f

/-! ## The fold back after the region -/

/-- THE RESULT ARRAY after the run: `result` of the argument arrays. -/
theorem tail_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v4) = _
  after_results
  funext i
  obtain ⟨b, t, j, rfl⟩ : ∃ (b : Fin 32) (t : Fin 2048) (j : Fin 63), i = ix3 b t j := ⟨i 0, i 1, i 2, eq_ix3 i⟩
  have hw := (Pipeline.withArrays_arr spec0 launch0.win.arr_inj c (V0 m c) (fun w => (dats m 0 c).arrAt w cfg0.N) 5).trans (final m c)
  show shapeCast S32x2048x63 _ Facts₀.shapeCasts_S65536x63_S32x2048x63 (ix3 b t j) = _
  refine (shapeCast_apply _ _ (ix3 b t j) (ix2 (⟨b.val * 2048 + t.val, by omega⟩ : Fin 65536) j) (by
    rw [Shape.rowMajor_val_three, Shape.rowMajor_val_two]
    show (b.val * 2048 + t.val) * 63 + j.val = (b.val * 2048 + t.val) * 63 + j.val
    rfl)).trans ?_
  refine (congrFun hw _).trans ?_
  rw [rowsOut_apply, result_apply, V_main_arg1, V_main_arg3]
  rw [show (fun k => V m c main_v0 (ix2 (⟨b.val * 2048 + t.val, by omega⟩ : Fin 65536) k))
        = (fun k => m ((c : Thread nD τ).loc main_arg0) (ix3 b t k)) from funext fun k => flat_apply m c b t k,
    show (fun s => V m c main_v1 (ix2 (0 : Fin 1) s)) = (fun s => m ((c : Thread nD τ).loc main_arg2) (ix1 s)) from
      funext fun s => bias1_apply m c s,
    show (fun f => V m c main_v2 (ix2 (0 : Fin 1) f)) = (fun f => m ((c : Thread nD τ).loc main_arg4) (ix1 f)) from
      funext fun f => bias2_apply m c f]

/-! ## The run -/

/-- Every weakly fair execution of the idealized kernel terminates with the result buffer at `result` of the
    arguments, and the arguments as launched. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Arr

end
-- ==== Proof.LibNary5.lean ====
/-
  A host operation over a literal family of FIVE operand buffers (a five-piece `stablehlo.concatenate`): what its
  result buffer holds afterwards, each operand's contents read AT ITS OWN buffer.

  The general statement for an n-ary operation hands the operation's function the family `fun k => F (xs k)` of
  operand contents. For a literal family `![x, a, b, c, e]` the buffer `xs k` under that binder is no literal, so a
  proof that goes on to read each operand's contents (what the operations before it left in that buffer) finds no
  buffer to read them at. Here the family is spelt out coordinate by coordinate, `Fin.cons (F x) (Fin.cons (F a) …)`:
  the two families agree at each of the five indices `0, …, 4`, which is all there is to check.
-/
import Idealize.ShloMosaic.Lib.StableHlo.Run

namespace HostNary5

open Idealize.ShloMosaic Idealize.ShloMosaic.StableHlo

variable {τ : Topo} {sig : RefSig} {Val : EltTy → Type} {x a b c e y : Ref sig .tc}

/-- The result buffer of an operation over the five literal operand buffers `x, a, b, c, e` holds the operation's
    function of the five operands' contents, each read at its own buffer. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same with the result buffer left out of the rewriting index, so that one simplifier pass can use it beside
    the library's statements for the other operations. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- The same for an operation whose function reads its five operands one by one: with `g` that function of five
    separate arguments (`hf`), the result buffer holds `g` of the contents of `x, a, b, c, e`. In this form the five
    contents stand in the result as plain arguments, each at its own buffer. -/
theorem nary5_result_args
    (f : ((k : Fin 5) → ((![x, a, b, c, e] : Fin 5 → Ref sig .tc) k).ty.Contents Val) → y.ty.Contents Val) (hxs hy)
    (F : Valuation τ sig Val)
    (g : x.ty.Contents Val → a.ty.Contents Val → b.ty.Contents Val → c.ty.Contents Val → e.ty.Contents Val → y.ty.Contents Val)
    (hf : ∀ u, f u = g (u 0) (u 1) (u 2) (u 3) (u 4)) :
    (nary (τ := τ) ![x, a, b, c, e] y f hxs hy).result F (Proc.devRef .tc y)
      = g (F (Proc.devRef .tc x)) (F (Proc.devRef .tc a)) (F (Proc.devRef .tc b)) (F (Proc.devRef .tc c)) (F (Proc.devRef .tc e)) := by
  rw [nary_result, hf]; rfl

/-- Two five-piece concatenates of pieces of the same shapes agree as soon as the pieces agree one by one. (The
    concatenate carries a fact about its pieces' SHAPES only, so the pieces' contents can be exchanged under it.) -/
theorem concatenate5_congr {α : Type} {t : Shape} (ax : Fin t.rank) {s0 s1 s2 s3 s4 : Shape}
    {x0 y0 : s0.Idx → α} {x1 y1 : s1.Idx → α} {x2 y2 : s2.Idx → α} {x3 y3 : s3.Idx → α} {x4 y4 : s4.Idx → α}
    (h : Shape.Concatenates [s0, s1, s2, s3, s4] t ax)
    (e0 : x0 = y0) (e1 : x1 = y1) (e2 : x2 = y2) (e3 : x3 = y3) (e4 : x4 = y4) :
    concatenate t ax [⟨s0, x0⟩, ⟨s1, x1⟩, ⟨s2, x2⟩, ⟨s3, x3⟩, ⟨s4, x4⟩] h
      = concatenate t ax [⟨s0, y0⟩, ⟨s1, y1⟩, ⟨s2, y2⟩, ⟨s3, y3⟩, ⟨s4, y4⟩] h := by
  subst e0 e1 e2 e3 e4; rfl

end HostNary5
-- ==== Proof.RefRows.lean ====
/-
  The reference, read one (batch, time) position at a time.

  The reference works on the [32, 2048] array of positions whole: a contraction of the embeddings with each head's
  weights, the bias repeated over the positions, and a softmax along the last axis (the maximum and the sum are
  reductions over that axis, put back by broadcasts). Entry `(b, t, ·)` of every intermediate array depends on the
  embedding of position `(b, t)` alone, and is the position-wise expression of `ActionHeads` there. The stages are the
  generated `val_main_v…`, read at an index by their generated lemmas; the two maximum reductions and the final
  five-piece concatenate, which those lemmas leave out, are read here.
-/
import proofs.«160497_j46969762349381_1_alg».proof.Proof.RefReadP
import proofs.«160497_j46969762349381_1_alg».proof.Proof.Spec
import Idealize.ShloMosaic.Lib.Pipeline.Value
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.ReadP
open Idealize.ShloMosaic Idealize.ShloMosaic.ValueIdx ActionHeads

variable (X : (⟨S32x2048x1024, .f32⟩ : BufTy).Contents (Elt Ideal)) (Ws : (⟨S5x1024, .f32⟩ : BufTy).Contents (Elt Ideal)) (bs : (⟨S5, .f32⟩ : BufTy).Contents (Elt Ideal))
  (Wf : (⟨S30x1024, .f32⟩ : BufTy).Contents (Elt Ideal)) (bf : (⟨S30, .f32⟩ : BufTy).Contents (Elt Ideal))

/-! ## The status head -/

/-- The status logits at `(b, t, s)`: those of position `(b, t)`. -/
theorem logits_status (b : Fin 32) (t : Fin 2048) (s : Fin 5) :
    val_main_v3 (F := Ideal) X Ws bs (ix3 b t s)
      = logit (fun k => X (ix3 b t k)) (fun s' k => Ws (ix2 s' k)) (fun s' => bs (ix1 s')) s := by
  rw [val_main_v3_apply, val_main_v0_apply, val_main_v2_apply, val_main_v1_apply]
  have e1 : ∀ k, lidx_main_v0 (ix3 b t s) k = ix3 b t k := fun k => funext fun a => Fin.ext (by
    match a with | ⟨0, _⟩ => rfl | ⟨1, _⟩ => rfl | ⟨2, _⟩ => rfl)
  have e2 : ∀ k, ridx_main_v0 (ix3 b t s) k = ix2 s k := fun k => funext fun a => Fin.ext (by
    match a with | ⟨0, _⟩ => rfl | ⟨1, _⟩ => rfl)
  have e3 : idx_main_v1 (idx_main_v2 (ix3 b t s)) = ix1 s := funext fun a => Fin.ext (by
    match a with | ⟨0, _⟩ => rfl)
  simp only [e1, e2, e3]
  rfl

/-- Putting `s` back into the reduced index `(b, t)` gives `(b, t, s)`. -/
theorem lift_status (h : S32x2048x5.Reduces [2] S32x2048) (b : Fin 32) (t : Fin 2048) (s : Fin 5) :
    h.lift (ix2 b t) s = ix3 b t s :=
  funext fun a => Fin.ext (by match a with | ⟨0, _⟩ => rfl | ⟨1, _⟩ => rfl | ⟨2, _⟩ => rfl)

/-- The maximum the softmax subtracts, at `(b, t)`: the row maximum of that position's status logits. -/
theorem max_status (b : Fin 32) (t : Fin 2048) :
    val_main_v6 (F := Ideal) X Ws bs (ix2 b t) = rowMax fun s => val_main_v3 (F := Ideal) X Ws bs (ix3 b t s) := by
  rw [val_main_v6_apply, val_main_v5_apply, val_main_cst_0_apply]
  unfold val_main_v4 rowMax
  show max (Ideal.ofBits .f32 0xFF800000#32) _ = _
  have hred : S32x2048x5.Reduces [2] S32x2048 := by decide
  refine congrArg (max (Ideal.ofBits .f32 0xFF800000#32))
    ((Host.reduce_eq_fold_single FloatOps.maximumf _ _ _ hred _ (ix2 b t)).trans ?_)
  exact congrArg (fun g => Finset.fold max (Ideal.ofBits .f32 0xFF800000#32) g Finset.univ)
    (funext fun s => congrArg (val_main_v3 (F := Ideal) X Ws bs) (lift_status hred b t s))

/-- The status probabilities at `(b, t, s)`: the softmax of that position's status logits. -/
theorem softmax_status (b : Fin 32) (t : Fin 2048) (s : Fin 5) :
    val_main_v14 (F := Ideal) X Ws bs (ix3 b t s)
      = softmax (fun s' => val_main_v3 (F := Ideal) X Ws bs (ix3 b t s')) s := by
  have i78 : ∀ q : Fin 5, idx_main_v7 (idx_main_v8 (ix3 b t q)) = ix2 b t := fun q => funext fun a => Fin.ext (by
    match a with | ⟨0, _⟩ => rfl | ⟨1, _⟩ => rfl)
  have hE : ∀ q : Fin 5, val_main_v10 (F := Ideal) X Ws bs (ix3 b t q)
      = Ideal.exp (val_main_v3 (F := Ideal) X Ws bs (ix3 b t q) - rowMax fun s' => val_main_v3 (F := Ideal) X Ws bs (ix3 b t s')) := fun q => by
    rw [val_main_v10_apply, val_main_v9_apply, val_main_v8_apply, val_main_v7_apply, i78 q, max_status]
    rfl
  have i1213 : idx_main_v12 (idx_main_v13 (ix3 b t s)) = ix2 b t := funext fun a => Fin.ext (by
    match a with | ⟨0, _⟩ => rfl | ⟨1, _⟩ => rfl)
  have i11 : ∀ k : Fin 5, idx_main_v11 (ix2 b t) k = ix3 b t k := fun k => funext fun a => Fin.ext (by
    match a with | ⟨0, _⟩ => rfl | ⟨1, _⟩ => rfl | ⟨2, _⟩ => rfl)
  rw [val_main_v14_apply, val_main_v13_apply, val_main_v12_apply, i1213, val_main_v11_apply, val_main_cst_1_apply, hE s]
  unfold softmax
  show Ideal.div _ (Ideal.ofBits .f32 0x00000000#32 + _) = _
  rw [Ideal.ofBits_zero_f32, zero_add]
  exact congrArg (Ideal.div _) (Finset.sum_congr rfl fun k _ => by rw [i11 k]; exact hE k)

/-- So the status probabilities at `(b, t, s)` are those of position `(b, t)`. -/
theorem status_apply (b : Fin 32) (t : Fin 2048) (s : Fin 5) :
    val_main_v14 (F := Ideal) X Ws bs (ix3 b t s)
      = softmax (logit (fun k => X (ix3 b t k)) (fun s' k => Ws (ix2 s' k)) (fun s' => bs (ix1 s'))) s :=
  (softmax_status X Ws bs b t s).trans (congrArg (fun l => softmax l s) (funext fun s' => logits_status X Ws bs b t s'))

/-! ## The flight head -/

/-- The flight logits at `(b, t, f)`: those of position `(b, t)`. -/
theorem logits_flight (b : Fin 32) (t : Fin 2048) (f : Fin 30) :
    val_main_v18 (F := Ideal) X Wf bf (ix3 b t f)
      = logit (fun k => X (ix3 b t k)) (fun f' k => Wf (ix2 f' k)) (fun f' => bf (ix1 f')) f := by
  rw [val_main_v18_apply, val_main_v15_apply, val_main_v17_apply, val_main_v16_apply]
  have e1 : ∀ k, lidx_main_v15 (ix3 b t f) k = ix3 b t k := fun k => funext fun a => Fin.ext (by
    match a with | ⟨0, _⟩ => rfl | ⟨1, _⟩ => rfl | ⟨2, _⟩ => rfl)
  have e2 : ∀ k, ridx_main_v15 (ix3 b t f) k = ix2 f k := fun k => funext fun a => Fin.ext (by
    match a with | ⟨0, _⟩ => rfl | ⟨1, _⟩ => rfl)
  have e3 : idx_main_v16 (idx_main_v17 (ix3 b t f)) = ix1 f := funext fun a => Fin.ext (by
    match a with | ⟨0, _⟩ => rfl)
  simp only [e1, e2, e3]
  rfl

/-- Putting `f` back into the reduced index `(b, t)` gives `(b, t, f)`. -/
theorem lift_flight (h : S32x2048x30.Reduces [2] S32x2048) (b : Fin 32) (t : Fin 2048) (f : Fin 30) :
    h.lift (ix2 b t) f = ix3 b t f :=
  funext fun a => Fin.ext (by match a with | ⟨0, _⟩ => rfl | ⟨1, _⟩ => rfl | ⟨2, _⟩ => rfl)

/-- The maximum the softmax subtracts, at `(b, t)`: the row maximum of that position's flight logits. -/
theorem max_flight (b : Fin 32) (t : Fin 2048) :
    val_main_v21 (F := Ideal) X Wf bf (ix2 b t) = rowMax fun f => val_main_v18 (F := Ideal) X Wf bf (ix3 b t f) := by
  rw [val_main_v21_apply, val_main_v20_apply, val_main_cst_3_apply]
  unfold val_main_v19 rowMax
  show max (Ideal.ofBits .f32 0xFF800000#32) _ = _
  have hred : S32x2048x30.Reduces [2] S32x2048 := by decide
  refine congrArg (max (Ideal.ofBits .f32 0xFF800000#32))
    ((Host.reduce_eq_fold_single FloatOps.maximumf _ _ _ hred _ (ix2 b t)).trans ?_)
  exact congrArg (fun g => Finset.fold max (Ideal.ofBits .f32 0xFF800000#32) g Finset.univ)
    (funext fun f => congrArg (val_main_v18 (F := Ideal) X Wf bf) (lift_flight hred b t f))

/-- The flight probabilities at `(b, t, f)`: the softmax of that position's flight logits. -/
theorem softmax_flight (b : Fin 32) (t : Fin 2048) (f : Fin 30) :
    val_main_v29 (F := Ideal) X Wf bf (ix3 b t f)
      = softmax (fun f' => val_main_v18 (F := Ideal) X Wf bf (ix3 b t f')) f := by
  have i2223 : ∀ q : Fin 30, idx_main_v22 (idx_main_v23 (ix3 b t q)) = ix2 b t := fun q => funext fun a => Fin.ext (by
    match a with | ⟨0, _⟩ => rfl | ⟨1, _⟩ => rfl)
  have hE : ∀ q : Fin 30, val_main_v25 (F := Ideal) X Wf bf (ix3 b t q)
      = Ideal.exp (val_main_v18 (F := Ideal) X Wf bf (ix3 b t q) - rowMax fun f' => val_main_v18 (F := Ideal) X Wf bf (ix3 b t f')) := fun q => by
    rw [val_main_v25_apply, val_main_v24_apply, val_main_v23_apply, val_main_v22_apply, i2223 q, max_flight]
    rfl
  have i2728 : idx_main_v27 (idx_main_v28 (ix3 b t f)) = ix2 b t := funext fun a => Fin.ext (by
    match a with | ⟨0, _⟩ => rfl | ⟨1, _⟩ => rfl)
  have i26 : ∀ k : Fin 30, idx_main_v26 (ix2 b t) k = ix3 b t k := fun k => funext fun a => Fin.ext (by
    match a with | ⟨0, _⟩ => rfl | ⟨1, _⟩ => rfl | ⟨2, _⟩ => rfl)
  rw [val_main_v29_apply, val_main_v28_apply, val_main_v27_apply, i2728, val_main_v26_apply, val_main_cst_4_apply, hE f]
  unfold softmax
  show Ideal.div _ (Ideal.ofBits .f32 0x00000000#32 + _) = _
  rw [Ideal.ofBits_zero_f32, zero_add]
  exact congrArg (Ideal.div _) (Finset.sum_congr rfl fun k _ => by rw [i26 k]; exact hE k)

/-- So the flight probabilities at `(b, t, f)` are those of position `(b, t)`. -/
theorem flight_apply (b : Fin 32) (t : Fin 2048) (f : Fin 30) :
    val_main_v29 (F := Ideal) X Wf bf (ix3 b t f)
      = softmax (logit (fun k => X (ix3 b t k)) (fun f' k => Wf (ix2 f' k)) (fun f' => bf (ix1 f'))) f :=
  (softmax_flight X Wf bf b t f).trans (congrArg (fun l => softmax l f) (funext fun f' => logits_flight X Wf bf b t f'))

/-! ## The 63 action probabilities -/

/-- Five pieces side by side along the last axis — three of one entry, then two of thirty — read at `(b, t, j)`. -/
theorem concat63_apply (c0 c1 c2 : (⟨S32x2048x1, .f32⟩ : BufTy).Contents (Elt Ideal)) (d0 d1 : (⟨S32x2048x30, .f32⟩ : BufTy).Contents (Elt Ideal))
    (h : Shape.Concatenates [S32x2048x1, S32x2048x1, S32x2048x1, S32x2048x30, S32x2048x30] S32x2048x63 2)
    (b : Fin 32) (t : Fin 2048) (j : Fin 63) :
    concatenate S32x2048x63 2 [⟨S32x2048x1, c0⟩, ⟨S32x2048x1, c1⟩, ⟨S32x2048x1, c2⟩, ⟨S32x2048x30, d0⟩, ⟨S32x2048x30, d1⟩] h (ix3 b t j)
      = sideBySide (c0 (ix3 b t 0)) (c1 (ix3 b t 0)) (c2 (ix3 b t 0)) (fun f => d0 (ix3 b t f)) (fun f => d1 (ix3 b t f)) j := by
  rcases column_cases j with hj | hj | hj | ⟨f, hj⟩ | ⟨f, hj⟩
  · rw [sideBySide_0 _ _ _ _ _ j hj]
    exact concatenate_apply_piece (t := S32x2048x63) (2 : Fin 3) [⟨S32x2048x1, c0⟩, ⟨S32x2048x1, c1⟩, ⟨S32x2048x1, c2⟩, ⟨S32x2048x30, d0⟩, ⟨S32x2048x30, d1⟩] h (ix3 b t j) 0 (by show 0 < 5; omega) S32x2048x1 c0 rfl rfl 0 rfl (ix3 b t 0)
      (fun a ha => by match a with | ⟨0, _⟩ => rfl | ⟨1, _⟩ => rfl | ⟨2, _⟩ => exact absurd rfl ha) (by show 0 + 0 = j.val; omega)
  · rw [sideBySide_1 _ _ _ _ _ j hj]
    exact concatenate_apply_piece (t := S32x2048x63) (2 : Fin 3) [⟨S32x2048x1, c0⟩, ⟨S32x2048x1, c1⟩, ⟨S32x2048x1, c2⟩, ⟨S32x2048x30, d0⟩, ⟨S32x2048x30, d1⟩] h (ix3 b t j) 1 (by show 1 < 5; omega) S32x2048x1 c1 rfl rfl 1 rfl (ix3 b t 0)
      (fun a ha => by match a with | ⟨0, _⟩ => rfl | ⟨1, _⟩ => rfl | ⟨2, _⟩ => exact absurd rfl ha) (by show 1 + 0 = j.val; omega)
  · rw [sideBySide_2 _ _ _ _ _ j hj]
    exact concatenate_apply_piece (t := S32x2048x63) (2 : Fin 3) [⟨S32x2048x1, c0⟩, ⟨S32x2048x1, c1⟩, ⟨S32x2048x1, c2⟩, ⟨S32x2048x30, d0⟩, ⟨S32x2048x30, d1⟩] h (ix3 b t j) 2 (by show 2 < 5; omega) S32x2048x1 c2 rfl rfl 2 rfl (ix3 b t 0)
      (fun a ha => by match a with | ⟨0, _⟩ => rfl | ⟨1, _⟩ => rfl | ⟨2, _⟩ => exact absurd rfl ha) (by show 2 + 0 = j.val; omega)
  · rw [sideBySide_3 _ _ _ _ _ j f hj]
    exact concatenate_apply_piece (t := S32x2048x63) (2 : Fin 3) [⟨S32x2048x1, c0⟩, ⟨S32x2048x1, c1⟩, ⟨S32x2048x1, c2⟩, ⟨S32x2048x30, d0⟩, ⟨S32x2048x30, d1⟩] h (ix3 b t j) 3 (by show 3 < 5; omega) S32x2048x30 d0 rfl rfl 3 rfl (ix3 b t f)
      (fun a ha => by match a with | ⟨0, _⟩ => rfl | ⟨1, _⟩ => rfl | ⟨2, _⟩ => exact absurd rfl ha) (by show 3 + f.val = j.val; omega)
  · rw [sideBySide_4 _ _ _ _ _ j f hj]
    exact concatenate_apply_piece (t := S32x2048x63) (2 : Fin 3) [⟨S32x2048x1, c0⟩, ⟨S32x2048x1, c1⟩, ⟨S32x2048x1, c2⟩, ⟨S32x2048x30, d0⟩, ⟨S32x2048x30, d1⟩] h (ix3 b t j) 4 (by show 4 < 5; omega) S32x2048x30 d1 rfl rfl 33 rfl (ix3 b t f)
      (fun a ha => by match a with | ⟨0, _⟩ => rfl | ⟨1, _⟩ => rfl | ⟨2, _⟩ => exact absurd rfl ha) (by show 33 + f.val = j.val; omega)

/-- WHAT THE REFERENCE RETURNS: at `(b, t, j)`, action probability `j` of position `(b, t)`. -/
theorem reference_apply (b : Fin 32) (t : Fin 2048) (j : Fin 63) :
    val_main_v39 (F := Ideal) X Ws bs Wf bf (ix3 b t j)
      = position (fun k => X (ix3 b t k)) (fun s k => Ws (ix2 s k)) (fun s => bs (ix1 s))
          (fun f k => Wf (ix2 f k)) (fun f => bf (ix1 f)) j := by
  unfold val_main_v39
  refine (concat63_apply _ _ _ _ _ _ b t j).trans ?_
  unfold position actions
  have s0 : val_main_v30 (F := Ideal) X Ws bs (ix3 b t 0) = val_main_v14 (F := Ideal) X Ws bs (ix3 b t (0 : Fin 5)) := by
    rw [val_main_v30_apply]
    exact congrArg _ (funext fun a => Fin.ext (by match a with | ⟨0, _⟩ => rfl | ⟨1, _⟩ => rfl | ⟨2, _⟩ => rfl))
  have s1 : val_main_v31 (F := Ideal) X Ws bs (ix3 b t 0) = val_main_v14 (F := Ideal) X Ws bs (ix3 b t (1 : Fin 5)) := by
    rw [val_main_v31_apply]
    exact congrArg _ (funext fun a => Fin.ext (by match a with | ⟨0, _⟩ => rfl | ⟨1, _⟩ => rfl | ⟨2, _⟩ => rfl))
  have s2 : val_main_v32 (F := Ideal) X Ws bs (ix3 b t 0) = val_main_v14 (F := Ideal) X Ws bs (ix3 b t (2 : Fin 5)) := by
    rw [val_main_v32_apply]
    exact congrArg _ (funext fun a => Fin.ext (by match a with | ⟨0, _⟩ => rfl | ⟨1, _⟩ => rfl | ⟨2, _⟩ => rfl))
  have d4 : ∀ f : Fin 30, val_main_v36 (F := Ideal) X Ws bs Wf bf (ix3 b t f)
      = val_main_v14 (F := Ideal) X Ws bs (ix3 b t (4 : Fin 5)) * val_main_v29 (F := Ideal) X Wf bf (ix3 b t f) := fun f => by
    rw [val_main_v36_apply, val_main_v35_apply, val_main_v34_apply]
    exact congrArg (fun i => val_main_v14 (F := Ideal) X Ws bs i * val_main_v29 (F := Ideal) X Wf bf (ix3 b t f))
      (funext fun a => Fin.ext (by match a with | ⟨0, _⟩ => rfl | ⟨1, _⟩ => rfl | ⟨2, _⟩ => rfl))
  have d3 : ∀ f : Fin 30, val_main_v38 (F := Ideal) X Ws bs Wf bf (ix3 b t f)
      = val_main_v14 (F := Ideal) X Ws bs (ix3 b t (3 : Fin 5)) * val_main_v29 (F := Ideal) X Wf bf (ix3 b t f) := fun f => by
    rw [val_main_v38_apply, val_main_v37_apply, val_main_v33_apply]
    exact congrArg (fun i => val_main_v14 (F := Ideal) X Ws bs i * val_main_v29 (F := Ideal) X Wf bf (ix3 b t f))
      (funext fun a => Fin.ext (by match a with | ⟨0, _⟩ => rfl | ⟨1, _⟩ => rfl | ⟨2, _⟩ => rfl))
  rw [s0, s2, s1]
  simp only [d4, d3, status_apply, flight_apply]

/-- So the reference's result array is `result` of its arguments. -/
theorem reference_eq : val_main_v39 (F := Ideal) X Ws bs Wf bf = result X Ws bs Wf bf := by
  funext i
  obtain ⟨b, t, j, rfl⟩ : ∃ (b : Fin 32) (t : Fin 2048) (j : Fin 63), i = ix3 b t j := ⟨i 0, i 1, i 2, eq_ix3 i⟩
  rw [reference_apply, result_apply]

end Cert.ReferenceIdeal.Rows

end
-- ==== Proof.lean ====
/-
  The kernel and its reference compute the same 63 action probabilities at each of the 32 × 2048 positions.

  Both take the embeddings `x` of a position through two linear heads (5 status logits, 30 flight logits), take the
  softmax of each (the row maximum subtracted first), and lay out
      p_status 0, p_status 2, p_status 1, p_status 4 · p_flight, p_status 3 · p_flight.
  The kernel does this on 32 blocks of 2048 rows of the flattened [65536, 1024] embeddings, the reference on the
  [32, 2048, 1024] array whole; position `(b, t)` is row `2048 b + t`. At the ideal instance the two spell the very same
  expression for each entry (`ActionHeads.result`): the matrix products are the same sums over the 1024 embedding
  coordinates, the maxima the same folds, the row sums the same sums, and no law of arithmetic beyond that is needed,
  so the precondition (finite inputs) is never opened.

  The frames of the two kernel programs are the generated ones; the reference's frame is its run with the result
  dropped; nothing was rewritten by the ideal pass, so there is nothing to preserve.
-/
import proofs.«160497_j46969762349381_1_alg».proof.Defs
import proofs.«160497_j46969762349381_1_alg».proof.Proof.Gen.Kernel
import proofs.«160497_j46969762349381_1_alg».proof.Proof.Gen.Kernel.Skeleton
import proofs.«160497_j46969762349381_1_alg».proof.Proof.Gen.Kernel.Launch
import proofs.«160497_j46969762349381_1_alg».proof.Proof.Gen.Kernel.Points
import proofs.«160497_j46969762349381_1_alg».proof.Proof.Gen.Kernel.Frame
import proofs.«160497_j46969762349381_1_alg».proof.Proof.Gen.KernelIdeal
import proofs.«160497_j46969762349381_1_alg».proof.Proof.Gen.KernelIdeal.Skeleton
import proofs.«160497_j46969762349381_1_alg».proof.Proof.Gen.KernelIdeal.Launch
import proofs.«160497_j46969762349381_1_alg».proof.Proof.Gen.KernelIdeal.Points
import proofs.«160497_j46969762349381_1_alg».proof.Proof.Gen.KernelIdeal.Frame
import proofs.«160497_j46969762349381_1_alg».proof.Proof.Gen.ReferenceIdeal
import proofs.«160497_j46969762349381_1_alg».proof.Proof.Gen.Pre_finite_inputs
import proofs.«160497_j46969762349381_1_alg».proof.Proof.KernelRun
import proofs.«160497_j46969762349381_1_alg».proof.Proof.RefRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the five arguments both programs end with their result buffer at
    `ActionHeads.result` of those arguments. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v39_eq, Cert.ReferenceIdeal.Rows.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
